-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S64x256 : Shape := ⟨2, ![64, 256]⟩
abbrev S64 : Shape := ⟨1, ![64]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x512x128 .f32) (main_arg1 : FVec F S4x512x128 .f32) (main_arg2 : FVec F S64x256 .f32) (main_arg3 : FVec F S64 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x512x128 : Shape := ⟨3, ![4, 512, 128]⟩
abbrev S64x256 : Shape := ⟨2, ![64, 256]⟩
abbrev S64 : Shape := ⟨1, ![64]⟩
abbrev S4x512x512x64 : Shape := ⟨4, ![4, 512, 512, 64]⟩
abbrev S1x256x128 : Shape := ⟨3, ![1, 256, 128]⟩
abbrev S1x128x128 : Shape := ⟨3, ![1, 128, 128]⟩
abbrev S1x256x128x64 : Shape := ⟨4, ![1, 256, 128, 64]⟩
abbrev S256x128 : Shape := ⟨2, ![256, 128]⟩
abbrev S128x128 : Shape := ⟨2, ![128, 128]⟩
abbrev S64x128 : Shape := ⟨2, ![64, 128]⟩
abbrev S128x64 : Shape := ⟨2, ![128, 64]⟩
abbrev S256x64 : Shape := ⟨2, ![256, 64]⟩
abbrev S256x1x64 : Shape := ⟨3, ![256, 1, 64]⟩
abbrev S1x128x64 : Shape := ⟨3, ![1, 128, 64]⟩
abbrev S256x128x64 : Shape := ⟨3, ![256, 128, 64]⟩
abbrev S1x1x64 : Shape := ⟨3, ![1, 1, 64]⟩

abbrev nBuf : Space → Nat
  | .hbm => 5
  | .vmem => 8
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S64x256, .f32⟩
  | .hbm, ⟨3, _⟩ => ⟨S64, .f32⟩
  | .hbm, ⟨4, _⟩ => ⟨S4x512x512x64, .f32⟩
  | .local _ .vmem, ⟨0, _⟩ => ⟨S1x256x128, .f32⟩
  | .local _ .vmem, ⟨1, _⟩ => ⟨S1x256x128, .f32⟩
  | .local _ .vmem, ⟨2, _⟩ => ⟨S1x128x128, .f32⟩
  | .local _ .vmem, ⟨3, _⟩ => ⟨S1x128x128, .f32⟩
  | .local _ .vmem, ⟨4, _⟩ => ⟨S64x256, .f32⟩
  | .local _ .vmem, ⟨5, _⟩ => ⟨S64, .f32⟩
  | .local _ .vmem, ⟨6, _⟩ => ⟨S1x256x128x64, .f32⟩
  | .local _ .vmem, ⟨7, _⟩ => ⟨S1x256x128x64, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S64x256_S64x128_0_0 : ∀ a, (![0, 0] : Fin 2 → Nat) a + S64x128.size a ≤ S64x256.size a
  h_S64x128 : 0 < S64x128.numel
  inb_S64x256_S64x128_0_128 : ∀ a, (![0, 128] : Fin 2 → Nat) a + S64x128.size a ≤ S64x256.size a
  inb_S64_S64_0 : ∀ a, (![0] : Fin 1 → Nat) a + S64.size a ≤ S64.size a
  h_S64 : 0 < S64.numel
  transposes_S64x128_p1_0_S128x64 : S64x128.Transposes [1, 0] S128x64
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  shapeCasts_S64_S1x1x64 : S64.ShapeCasts S1x1x64
  broadcasts_S1x1x64_S256x128x64 : S1x1x64.Broadcasts S256x128x64
  inb_S1x256x128x64_S1x256x128x64_0_0_0_0 : ∀ a, (![0, 0, 0, 0] : Fin 4 → Nat) a + S1x256x128x64.size a ≤ S1x256x128x64.size a
  h_S1x256x128x64 : 0 < S1x256x128x64.numel
  shapeCasts_S1x256x128x64_S256x128x64 : S1x256x128x64.ShapeCasts S256x128x64
  shapeCasts_S256x128x64_S1x256x128x64 : S256x128x64.ShapeCasts S1x256x128x64
  dot_S256x128_S128x64_S256x64_1_0_0_1_n_n_wf : DotDims.WF S256x128 S128x64 S256x64 [1] [0] [0] [1] [] []
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x512x128.size a
  hwx0_0 : ∀ i : grid0.Coords, EltTy.bits .f32 = 32 ∨ (Rect.block (s := S4x512x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128x64.size a ≤ S4x512x512x64.size a
  hwx0_4 : ∀ i : grid0.Coords, EltTy.bits .f32 = 32 ∨ (Rect.block (s := S4x512x512x64) S1x256x128x64.size (cc0_transform_4 i) (hinb0_4 i)).WholeWords (EltTy.packing .f32)

variable [Facts₀]

def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S64x256 : Shape := ⟨2, ![64, 256]⟩
abbrev S64 : Shape := ⟨1, ![64]⟩
abbrev S64x128 : Shape := ⟨2, ![64, 128]⟩
abbrev S4x512x64 : Shape := ⟨3, ![4, 512, 64]⟩
abbrev S4x512x1x64 : Shape := ⟨4, ![4, 512, 1, 64]⟩
abbrev S4x1x512x64 : Shape := ⟨4, ![4, 1, 512, 64]⟩
abbrev S4x512x512x64 : Shape := ⟨4, ![4, 512, 512, 64]⟩
abbrev S1x1x1x64 : Shape := ⟨4, ![1, 1, 1, 64]⟩

abbrev nBuf : Space → Nat
  | .hbm => 16
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S64x256, .f32⟩
  | .hbm, ⟨3, _⟩ => ⟨S64, .f32⟩
  | .hbm, ⟨4, _⟩ => ⟨S64x128, .f32⟩
  | .hbm, ⟨5, _⟩ => ⟨S64x128, .f32⟩
  | .hbm, ⟨6, _⟩ => ⟨S4x512x64, .f32⟩
  | .hbm, ⟨7, _⟩ => ⟨S4x512x64, .f32⟩
  | .hbm, ⟨8, _⟩ => ⟨S4x512x1x64, .f32⟩
  | .hbm, ⟨9, _⟩ => ⟨S4x1x512x64, .f32⟩
  | .hbm, ⟨10, _⟩ => ⟨S4x512x512x64, .f32⟩
  | .hbm, ⟨11, _⟩ => ⟨S4x512x512x64, .f32⟩
  | .hbm, ⟨12, _⟩ => ⟨S4x512x512x64, .f32⟩
  | .hbm, ⟨13, _⟩ => ⟨S1x1x1x64, .f32⟩
  | .hbm, ⟨14, _⟩ => ⟨S4x512x512x64, .f32⟩
  | .hbm, ⟨15, _⟩ => ⟨S4x512x512x64, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S64x256_S64x128_0_0 : S64x256.Slices ![0, 0] S64x128
  slices_S64x256_S64x128_0_128 : S64x256.Slices ![0, 128] S64x128
  bcast_S4x512x64_S4x512x1x64_0_1_3 : S4x512x64.BroadcastsInDim S4x512x1x64 (![0, 1, 3] : Fin 3 → Fin S4x512x1x64.rank)
  bcast_S4x512x64_S4x1x512x64_0_2_3 : S4x512x64.BroadcastsInDim S4x1x512x64 (![0, 2, 3] : Fin 3 → Fin S4x1x512x64.rank)
  bcast_S4x512x1x64_S4x512x512x64_0_1_2_3 : S4x512x1x64.BroadcastsInDim S4x512x512x64 (![0, 1, 2, 3] : Fin 4 → Fin S4x512x512x64.rank)
  bcast_S4x1x512x64_S4x512x512x64_0_1_2_3 : S4x1x512x64.BroadcastsInDim S4x512x512x64 (![0, 1, 2, 3] : Fin 4 → Fin S4x512x512x64.rank)
  bcast_S64_S1x1x1x64_3 : S64.BroadcastsInDim S1x1x1x64 (![3] : Fin 1 → Fin S1x1x1x64.rank)
  bcast_S1x1x1x64_S4x512x512x64_0_1_2_3 : S1x1x1x64.BroadcastsInDim S4x512x512x64 (![0, 1, 2, 3] : Fin 4 → Fin S4x512x512x64.rank)
  dot_S4x512x128_S64x128_S4x512x64_2_1_01_0_n_n_wf : DotDims.WF S4x512x128 S64x128 S4x512x64 [2] [1] [0, 1] [0] [] []

variable [Facts₀]

def dot_S4x512x128_S64x128_S4x512x64_2_1_01_0_n_n : DotDims S4x512x128 S64x128 S4x512x64 where
  lhsContracting := [2]
  rhsContracting := [1]
  lhsNonContracting := [0, 1]
  rhsNonContracting := [0]
  lhsBatch := []
  rhsBatch := []
  wf := dot_S4x512x128_S64x128_S4x512x64_2_1_01_0_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KernelBody.lean ====
/-
  The kernel body's one stored value, read at an index.

  At a grid point the body holds a block `x` of 256 ligand rows, a block `y` of 128 receptor rows (each block with a
  leading unit axis), the left and right halves `wl`, `wr` of the weight matrix (64 rows of 128 columns each) and the
  bias `bv`. It multiplies the ligand rows by the transposed left half and the receptor rows by the transposed right
  half, each product accumulated from zero, lays the first product along a new middle axis and the second along a new
  leading axis, broadcasts both and the bias to 256 × 128 × 64, and adds: first the two products, then the bias.
  The changes of float format are the identity on the extended reals. So at `(u, p, q, o)` the stored value is

      (∑ d, x[0, p, d] · wl[o, d])  +  (∑ d, y[0, q, d] · wr[o, d])  +  bv[o].
-/
import proofs.«176706_j1597727834177_1_alg».proof.Proof.Gen.KernelIdeal.Skeleton
import proofs.«176706_j1597727834177_1_alg».proof.Proof.LibContraction
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Lib.Contraction

/-- 256 rows times the transpose of 64 weight rows, from zero: at `(p, o)` the sum over the 128 features of row `p`'s
    entry times weight row `o`'s entry. -/
theorem rows256_mul_transpose (a : FVec Ideal S256x128 .bf16) (w : FVec Ideal S64x128 .bf16) (p : Fin 256) (o : Fin 64) :
    matmul dot_S256x128_S128x64_S256x64_1_0_0_1_n_n none a (transpose S128x64 [1, 0] w transposes_S64x128_p1_0_S128x64)
        (constant (F := Ideal) S256x64 .f32 0x00000000#32) (ix2 p o)
      = ∑ d : Fin 128, a (ix2 p d) * w (ix2 o d) := by
  simp only [matmul]
  rw [Ideal.matmul_constant_zero_apply,
    sum_contr dot_S256x128_S128x64_S256x64_1_0_0_1_n_n (cl := 1) rfl 128 rfl]
  refine Finset.sum_congr rfl fun d _ => ?_
  have el : dot_S256x128_S128x64_S256x64_1_0_0_1_n_n.lhsIdx (ix2 p o)
      ((contrFin dot_S256x128_S128x64_S256x64_1_0_0_1_n_n (cl := 1) rfl 128 rfl).symm d) = ix2 p d :=
    Shape.idx_ext₂ (lhs_free dot_S256x128_S128x64_S256x64_1_0_0_1_n_n (nl := 0) rfl rfl _ _ (by decide))
      (lhs_contracted dot_S256x128_S128x64_S256x64_1_0_0_1_n_n (cl := 1) rfl 128 rfl _ d)
  have er : dot_S256x128_S128x64_S256x64_1_0_0_1_n_n.rhsIdx (ix2 p o)
      ((contrFin dot_S256x128_S128x64_S256x64_1_0_0_1_n_n (cl := 1) rfl 128 rfl).symm d) = ix2 d o :=
    Shape.idx_ext₂ (rhs_contracted dot_S256x128_S128x64_S256x64_1_0_0_1_n_n (cl := 1) (cr := 0) rfl rfl 128 rfl _ d)
      (rhs_free dot_S256x128_S128x64_S256x64_1_0_0_1_n_n (nl := 0) (nr := 1) rfl rfl rfl rfl _ _ (by decide))
  rw [el, er, transpose_ix2_apply]

/-- 128 rows times the transpose of 64 weight rows, from zero: the same sum. -/
theorem rows128_mul_transpose (a : FVec Ideal S128x128 .bf16) (w : FVec Ideal S64x128 .bf16) (q : Fin 128) (o : Fin 64) :
    matmul dot_S128x128_S128x64_S128x64_1_0_0_1_n_n none a (transpose S128x64 [1, 0] w transposes_S64x128_p1_0_S128x64)
        (constant (F := Ideal) S128x64 .f32 0x00000000#32) (ix2 q o)
      = ∑ d : Fin 128, a (ix2 q d) * w (ix2 o d) := by
  simp only [matmul]
  rw [Ideal.matmul_constant_zero_apply,
    sum_contr dot_S128x128_S128x64_S128x64_1_0_0_1_n_n (cl := 1) rfl 128 rfl]
  refine Finset.sum_congr rfl fun d _ => ?_
  have el : dot_S128x128_S128x64_S128x64_1_0_0_1_n_n.lhsIdx (ix2 q o)
      ((contrFin dot_S128x128_S128x64_S128x64_1_0_0_1_n_n (cl := 1) rfl 128 rfl).symm d) = ix2 q d :=
    Shape.idx_ext₂ (lhs_free dot_S128x128_S128x64_S128x64_1_0_0_1_n_n (nl := 0) rfl rfl _ _ (by decide))
      (lhs_contracted dot_S128x128_S128x64_S128x64_1_0_0_1_n_n (cl := 1) rfl 128 rfl _ d)
  have er : dot_S128x128_S128x64_S128x64_1_0_0_1_n_n.rhsIdx (ix2 q o)
      ((contrFin dot_S128x128_S128x64_S128x64_1_0_0_1_n_n (cl := 1) rfl 128 rfl).symm d) = ix2 d o :=
    Shape.idx_ext₂ (rhs_contracted dot_S128x128_S128x64_S128x64_1_0_0_1_n_n (cl := 1) (cr := 0) rfl rfl 128 rfl _ d)
      (rhs_free dot_S128x128_S128x64_S128x64_1_0_0_1_n_n (nl := 0) (nr := 1) rfl rfl rfl rfl _ _ (by decide))
  rw [el, er, transpose_ix2_apply]

/-- A 256 × 64 value laid along a new middle axis and broadcast over 128: at `(p, q, o)` it is the value at `(p, o)`. -/
theorem along_middle (v : FVec Ideal S256x64 .f32) (p : Fin 256) (q : Fin 128) (o : Fin 64) :
    broadcastTo S256x128x64 (shapeCast S256x1x64 v shapeCasts_S256x64_S256x1x64) broadcasts_S256x1x64_S256x128x64 (ix3 p q o)
      = v (ix2 p o) := by
  refine (broadcastTo_apply _ _ (ix3 p q o) (ix3 p (0 : Fin 1) o) fun a => ?_).trans
    (shapeCast_apply v _ (ix3 p (0 : Fin 1) o) (ix2 p o) ?_)
  · match a with
    | ⟨0, _⟩ => show p.val = if (256 : Nat) = 1 then 0 else p.val; rw [if_neg (by decide)]
    | ⟨1, _⟩ => show 0 = if (1 : Nat) = 1 then 0 else q.val; rw [if_pos rfl]
    | ⟨2, _⟩ => show o.val = if (64 : Nat) = 1 then 0 else o.val; rw [if_neg (by decide)]
  · rw [Shape.rowMajor_val_two, Shape.rowMajor_val_three]
    show p.val * 64 + o.val = (p.val * 1 + 0) * 64 + o.val
    omega

/-- A 128 × 64 value laid along a new leading axis and broadcast over 256: at `(p, q, o)` it is the value at `(q, o)`. -/
theorem along_leading (v : FVec Ideal S128x64 .f32) (p : Fin 256) (q : Fin 128) (o : Fin 64) :
    broadcastTo S256x128x64 (shapeCast S1x128x64 v shapeCasts_S128x64_S1x128x64) broadcasts_S1x128x64_S256x128x64 (ix3 p q o)
      = v (ix2 q o) := by
  refine (broadcastTo_apply _ _ (ix3 p q o) (ix3 (0 : Fin 1) q o) fun a => ?_).trans
    (shapeCast_ab_1ab_apply v _ (0 : Fin 1) q o)
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show o.val = if (64 : Nat) = 1 then 0 else o.val; rw [if_neg (by decide)]

/-- The bias laid along two new leading axes and broadcast over 256 × 128: at `(p, q, o)` it is the bias at `o`. -/
theorem bias_everywhere (v : FVec Ideal S64 .f32) (p : Fin 256) (q : Fin 128) (o : Fin 64) :
    broadcastTo S256x128x64 (shapeCast S1x1x64 v shapeCasts_S64_S1x1x64) broadcasts_S1x1x64_S256x128x64 (ix3 p q o)
      = v (ix1 o) := by
  refine (broadcastTo_apply _ _ (ix3 p q o) (ix3 (0 : Fin 1) (0 : Fin 1) o) fun a => ?_).trans
    (shapeCast_apply v _ (ix3 (0 : Fin 1) (0 : Fin 1) o) (ix1 o) ?_)
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show o.val = if (64 : Nat) = 1 then 0 else o.val; rw [if_neg (by decide)]
  · rw [Shape.rowMajor_val_one, Shape.rowMajor_val_three]
    show o.val = (0 * 1 + 0) * 64 + o.val
    omega

/-- THE STORED VALUE at `(u, p, q, o)`: ligand row `p` against the left weight half, plus receptor row `q` against the
    right weight half, plus the bias, all at output feature `o`. -/
theorem stored_apply (x : Vec Ideal S1x256x128 .f32) (y : Vec Ideal S1x128x128 .f32) (wl wr : Vec Ideal S64x128 .f32)
    (bv : Vec Ideal S64 .f32) (u : Fin 1) (p : Fin 256) (q : Fin 128) (o : Fin 64) :
    k0_pay1 x y wl wr bv (ix4 u p q o)
      = (∑ d : Fin 128, x (ix3 (0 : Fin 1) p d) * wl (ix2 o d)) + (∑ d : Fin 128, y (ix3 (0 : Fin 1) q d) * wr (ix2 o d))
        + bv (ix1 o) := by
  unfold k0_pay1
  refine (shapeCast_abc_1abc_apply _ _ u p q o).trans ?_
  show (broadcastTo S256x128x64 _ _ (ix3 p q o) + broadcastTo S256x128x64 _ _ (ix3 p q o))
      + broadcastTo S256x128x64 _ _ (ix3 p q o) = _
  rw [along_middle, along_leading, bias_everywhere, rows256_mul_transpose, rows128_mul_transpose]
  simp only [truncf_apply, shapeCast_1ab_ab_apply]

end Cert.KernelIdeal.Body

end
-- ==== Proof.PairSpec.lean ====
/-
  The function both programs compute.

  For ligand rows `lig[b, l, ·]`, receptor rows `rec[b, r, ·]` (each of 128 features), a weight matrix `W` of 64 rows
  and 256 columns, read as two halves `W = [Wl | Wr]` of 128 columns each, and a bias `bias` of 64 entries, the
  result at `(b, l, r, o)` is

      (∑ d, lig[b, l, d] · W[o, d])  +  (∑ d, rec[b, r, d] · W[o, 128 + d])  +  bias[o] :

  the linear layer applied to the concatenation of a ligand row and a receptor row, split into the part that depends
  on the ligand row alone and the part that depends on the receptor row alone. Sums and products are those of the
  extended reals; the two sums are added first and the bias last, as both programs do.
-/
import Idealize.ShloMosaic.PureOps.Ideal
import Idealize.ShloMosaic.Lib.ValueIdx

noncomputable section

open scoped BigOperators

namespace Cert.PairSpec

open Idealize.ShloMosaic Idealize.ShloMosaic.ValueIdx

/-- Column `d` of the left half of the weight matrix. -/
abbrev colL (d : Fin 128) : Fin 256 := ⟨d.val, Nat.lt_of_lt_of_le d.isLt (by decide)⟩

/-- Column `d` of the right half of the weight matrix: column `128 + d` of the whole. -/
abbrev colR (d : Fin 128) : Fin 256 := ⟨128 + d.val, by have := d.isLt; omega⟩

/-- The ligand row's projection: `∑ d, lig[b, l, d] · W[o, d]`. -/
def ligProj (lig : FVec Ideal ⟨3, ![4, 512, 128]⟩ .f32) (W : FVec Ideal ⟨2, ![64, 256]⟩ .f32)
    (b : Fin 4) (l : Fin 512) (o : Fin 64) : EReal :=
  ∑ d : Fin 128, lig (ix3 b l d) * W (ix2 o (colL d))

/-- The receptor row's projection: `∑ d, rec[b, r, d] · W[o, 128 + d]`. -/
def recProj (rec : FVec Ideal ⟨3, ![4, 512, 128]⟩ .f32) (W : FVec Ideal ⟨2, ![64, 256]⟩ .f32)
    (b : Fin 4) (r : Fin 512) (o : Fin 64) : EReal :=
  ∑ d : Fin 128, rec (ix3 b r d) * W (ix2 o (colR d))

/-- The pairwise result: at `(b, l, r, o)` the ligand row's projection plus the receptor row's, plus the bias. -/
def pairwise (lig rec : FVec Ideal ⟨3, ![4, 512, 128]⟩ .f32) (W : FVec Ideal ⟨2, ![64, 256]⟩ .f32)
    (bias : FVec Ideal ⟨1, ![64]⟩ .f32) : FVec Ideal ⟨4, ![4, 512, 512, 64]⟩ .f32 :=
  fun j => ligProj lig W (j 0) (j 1) (j 3) + recProj rec W (j 0) (j 2) (j 3) + bias (ix1 (j 3))

theorem pairwise_apply (lig rec : FVec Ideal ⟨3, ![4, 512, 128]⟩ .f32) (W : FVec Ideal ⟨2, ![64, 256]⟩ .f32)
    (bias : FVec Ideal ⟨1, ![64]⟩ .f32) (b : Fin 4) (l r : Fin 512) (o : Fin 64) :
    pairwise lig rec W bias (ix4 b l r o) = ligProj lig W b l o + recProj rec W b r o + bias (ix1 o) := rfl

end Cert.PairSpec

end
-- ==== Proof.KernelArray.lean ====
/-
  From the kernel's blocks to its result array.

  The grid has 4 × 2 × 4 points (batch, ligand tile, receptor tile). At point (b, i, j) the kernel is handed rows
  256·i … 256·i + 255 of batch `b` of the ligand array, rows 128·j … 128·j + 127 of batch `b` of the receptor array, the
  whole weight matrix and the whole bias, and writes back the block (b, 256·i …, 128·j …, all 64 features) of the
  result. Entry (0, p, q, o) of what it writes is the stored value of the body at ligand row `p` and receptor row `q` of
  the tiles, which are rows 256·i + p and 128·j + q of the arrays: the pairwise function at (b, 256·i + p, 128·j + q, o).
  The 32 blocks tile the result array, so the array after the run is the pairwise function of the argument arrays.
-/
import proofs.«176706_j1597727834177_1_alg».proof.Proof.Gen.KernelIdeal.Value
import proofs.«176706_j1597727834177_1_alg».proof.Proof.KernelBody
import proofs.«176706_j1597727834177_1_alg».proof.Proof.PairSpec

noncomputable section

open scoped BigOperators

namespace Cert.KernelIdeal.Array

open Cert.KernelIdeal Cert.KernelIdeal.Gen Cert.KernelIdeal.Value Cert.KernelIdeal.Body Cert.PairSpec
open Idealize.ShloMosaic Idealize.ShloMosaic.ValueIdx Idealize.ShloMosaic.TcCoe Idealize.SL.Sem
open Idealize.ShloMosaic.Pipeline (Dat)

/-! ## The weight block's two halves -/

/-- The load of the weight block's first 128 columns reads column `d`. -/
theorem ld_left (w : Vec Ideal S64x256 .f32) (o : Fin 64) (d : Fin 128) : View.ld w r0_2 (ix2 o d) = w (ix2 o (colL d)) :=
  congrArg w (funext fun a => Fin.ext (by
    match a with
    | ⟨0, _⟩ => show 0 + 1 * o.val = o.val; omega
    | ⟨1, _⟩ => show 0 + 1 * d.val = d.val; omega))

/-- The load of its last 128 columns reads column `128 + d`. -/
theorem ld_right (w : Vec Ideal S64x256 .f32) (o : Fin 64) (d : Fin 128) : View.ld w r0_3 (ix2 o d) = w (ix2 o (colR d)) :=
  congrArg w (funext fun a => Fin.ext (by
    match a with
    | ⟨0, _⟩ => show 0 + 1 * o.val = o.val; omega
    | ⟨1, _⟩ => show 128 + 1 * d.val = 128 + d.val; omega))

/-! ## One entry of one block -/

/-- If the ligand tile's row `j 1` is the ligand array's row `(i 0, i 1)`, the receptor tile's row `j 2` is the receptor
    array's row `(i 0, i 2)`, the weight and bias blocks are the whole arrays and `j`, `i` name the same output feature, then
    the body's stored value at `j` is the pairwise function at `i`. -/
theorem entry_law (lig rec : FVec Ideal S4x512x128 .f32) (W : FVec Ideal S64x256 .f32) (bias : FVec Ideal S64 .f32)
    (x : Vec Ideal S1x256x128 .f32) (y : Vec Ideal S1x128x128 .f32) (w : Vec Ideal S64x256 .f32) (bv : Vec Ideal S64 .f32)
    (j : S1x256x128x64.Idx) (i : S4x512x512x64.Idx)
    (hx : ∀ d : Fin 128, x (ix3 (0 : Fin 1) (j 1) d) = lig (ix3 (i 0) (i 1) d))
    (hy : ∀ d : Fin 128, y (ix3 (0 : Fin 1) (j 2) d) = rec (ix3 (i 0) (i 2) d))
    (hw : w = W) (hb : bv = bias) (ho : (j 3).val = (i 3).val) :
    k0_pay1 x y (View.ld w r0_2) (View.ld w r0_3) bv j = pairwise lig rec W bias i := by
  obtain ⟨u, p, q, o, rfl⟩ : ∃ (u : Fin 1) (p : Fin 256) (q : Fin 128) (o : Fin 64), j = ix4 u p q o :=
    ⟨j 0, j 1, j 2, j 3, eq_ix4 j⟩
  obtain ⟨b, l, r, o', rfl⟩ : ∃ (b : Fin 4) (l r : Fin 512) (o' : Fin 64), i = ix4 b l r o' :=
    ⟨i 0, i 1, i 2, i 3, eq_ix4 i⟩
  obtain rfl : o = o' := Fin.ext ho
  subst hw hb
  rw [stored_apply, pairwise_apply]
  unfold ligProj recProj
  congr 2
  · exact Finset.sum_congr rfl fun d _ => by rw [ld_left]; exact congrArg (· * _) (hx d)
  · exact Finset.sum_congr rfl fun d _ => by rw [ld_right]; exact congrArg (· * _) (hy d)

/-! ## The index maps over the grid -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- How the input tiles move with the output block, decided over the 32 points: the ligand tile follows the output's
    batch and ligand-tile coordinates, the receptor tile its batch and receptor-tile coordinates, the weight and bias
    blocks never move, and the output's feature block is always the first. -/
theorem tiles_follow : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = win0_4.index t (2 : Fin 4)
    ∧ win0_1.index t (2 : Fin 3) = 0
    ∧ win0_2.index t (0 : Fin 2) = 0 ∧ win0_2.index t (1 : Fin 2) = 0
    ∧ win0_3.index t (0 : Fin 1) = 0
    ∧ win0_4.index t (3 : Fin 4) = 0 :=
  (by decide +kernel : ∀ t : Fin grid0.N, _)

/-- Every (batch, ligand tile, receptor tile) is some point's output block. -/
theorem tiles_onto : ∀ (q0 : Fin 4) (q1 : Fin 2) (q2 : Fin 4), ∃ t : Fin cfg0.N, win0_4.index t = ![q0.val, q1.val, q2.val, 0] :=
  (by decide +kernel : ∀ (q0 : Fin 4) (q1 : Fin 2) (q2 : Fin 4), ∃ t : Fin grid0.N, win0_4.index t = ![q0.val, q1.val, q2.val, 0])

variable (m : (ℓ : Loc nD τ sig) → Buf (Elt Ideal) ℓ) (ρ : Dev nD → PrngReg)

/-- The pairwise function of the argument arrays as the region finds them. -/
abbrev result (c : Dev nD) : FVec Ideal S4x512x512x64 .f32 :=
  pairwise (V m c main_arg0) (V m c main_arg1) (V m c main_arg2) (V m c main_arg3)

/-! ## What a point writes back -/

/-- Point `t` writes back block `t` of the pairwise function. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz4]
  simp only [View.ld_unit_zero (S := S1x256x128) hz3, View.ld_unit_zero (S := S1x128x128) hz3,
    View.ld_unit_zero (S := S64) hz1]
  obtain ⟨e00, e01, e02, e10, e11, e12, e20, e21, e30, e43⟩ := tiles_follow t
  funext j
  refine entry_law (V m c main_arg0) (V m c main_arg1) (V m c main_arg2) (V m c main_arg3)
    (iblk m c 0 t) (iblk m c 1 t) (iblk m c 2 t) (iblk m c 3 t) j (((cfg0.win 4).blk t).view.emb j) ?_ ?_ ?_ ?_ ?_
  · intro d
    show V m c main_arg0 (((cfg0.win 0).blk t).view.emb (ix3 (0 : Fin 1) (j 1) d)) = _
    refine congrArg (V m c main_arg0) (funext fun a => Fin.ext ?_)
    match a with
    | ⟨0, _⟩ =>
      show win0_0.index t (0 : Fin 3) * 1 + 1 * 0 = win0_4.index t (0 : Fin 4) * 1 + 1 * (j 0).val
      have hj : (j 0).val < 1 := (j 0).isLt
      omega
    | ⟨1, _⟩ =>
      show win0_0.index t (1 : Fin 3) * 256 + 1 * (j 1).val = win0_4.index t (1 : Fin 4) * 256 + 1 * (j 1).val
      omega
    | ⟨2, _⟩ =>
      show win0_0.index t (2 : Fin 3) * 128 + 1 * d.val = d.val
      omega
  · intro d
    show V m c main_arg1 (((cfg0.win 1).blk t).view.emb (ix3 (0 : Fin 1) (j 2) d)) = _
    refine congrArg (V m c main_arg1) (funext fun a => Fin.ext ?_)
    match a with
    | ⟨0, _⟩ =>
      show win0_1.index t (0 : Fin 3) * 1 + 1 * 0 = win0_4.index t (0 : Fin 4) * 1 + 1 * (j 0).val
      have hj : (j 0).val < 1 := (j 0).isLt
      omega
    | ⟨1, _⟩ =>
      show win0_1.index t (1 : Fin 3) * 128 + 1 * (j 2).val = win0_4.index t (2 : Fin 4) * 128 + 1 * (j 2).val
      omega
    | ⟨2, _⟩ =>
      show win0_1.index t (2 : Fin 3) * 128 + 1 * d.val = d.val
      omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 64 + 1 * (y 0).val = (y 0).val; omega
    | ⟨1, _⟩ => show win0_2.index t (1 : Fin 2) * 256 + 1 * (y 1).val = (y 1).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 1) * 64 + 1 * (y 0).val = (y 0).val; omega
  · show (j 3).val = win0_4.index t (3 : Fin 4) * 64 + 1 * (j 3).val
    omega

/-! ## The blocks tile the result -/

/-- An index of the result is in point `t`'s block iff each coordinate is in the block's range on its axis. -/
theorem mem_blk (t : Fin cfg0.N) (i : S4x512x512x64.Idx) :
    i ∈ ((cfg0.win 4).blk t).view.set ↔ ∀ a : Fin 4, win0_4.index t a * S1x256x128x64.size a ≤ (i a).val
      ∧ (i a).val < win0_4.index t a * S1x256x128x64.size a + S1x256x128x64.size a := by
  show i ∈ ((View.whole main_v0).slice (win0_4.rect t)).set ↔ _
  rw [View.set_slice_whole, Rect.mem_set_unit]
  exact Iff.rfl

/-- Every index of the result lies in the block of the point at (batch, ligand row / 256, receptor row / 128). -/
theorem covered (i : S4x512x512x64.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 512 := (i 2).isLt
  have hi3 : (i 3).val < 64 := (i 3).isLt
  obtain ⟨t, ht⟩ := tiles_onto ⟨(i 0).val, hi0⟩ ⟨(i 1).val / 256, by omega⟩ ⟨(i 2).val / 128, by omega⟩
  have q0 : win0_4.index t (0 : Fin 4) = (i 0).val := congrFun ht 0
  have q1 : win0_4.index t (1 : Fin 4) = (i 1).val / 256 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 256 ≤ (i 1).val ∧ (i 1).val < win0_4.index t (1 : Fin 4) * 256 + 256
    omega
  | ⟨2, _⟩ =>
    show win0_4.index t (2 : Fin 4) * 128 ≤ (i 2).val ∧ (i 2).val < win0_4.index t (2 : Fin 4) * 128 + 128
    omega
  | ⟨3, _⟩ =>
    show win0_4.index t (3 : Fin 4) * 64 ≤ (i 3).val ∧ (i 3).val < win0_4.index t (3 : Fin 4) * 64 + 64
    omega

/-- THE RESULT ARRAY after the run is the pairwise function of the argument arrays as launched. -/
theorem final (c : Dev nD) : (dats m 0 c).arrAt 4 cfg0.N
    = pairwise (m ((c : Thread nD τ).loc main_arg0)) (m ((c : Thread nD τ).loc main_arg1))
        (m ((c : Thread nD τ).loc main_arg2)) (m ((c : Thread nD τ).loc main_arg3)) :=
  (dats m 0 c).arrAt_eq_of_cover 4 (result m c) (fun t _ => flushed_eq m c t) covered

/-- The kernel's run, read: the result array ends at the pairwise function of the arguments, the arguments unchanged. -/
theorem run : θ_run defs (onTc (τ := τ) (main (F := Ideal))) ⟨m, fun _ => 0, ρ⟩ fun r => ∀ c : Dev nD,
      r.2.mem ((c : Thread nD τ).loc main_v0)
        = pairwise (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Array

end
-- ==== Proof.RefSide.lean ====
/-
  The reference computes the pairwise function.

  The reference slices the weight matrix into its left and right halves, contracts the ligand array with the left half
  and the receptor array with the right half over the 128 features, lays the first result along a new receptor axis and
  the second along a new ligand axis, broadcasts both and the bias to the full (b, l, r, o) shape, and adds: the two
  projections first, the bias last. Read at an index, each stage reads its operand at one index, and the two
  contractions are sums over the feature `d` of a ligand (receptor) entry times the weight entry in column `d`
  (column `128 + d`): the pairwise function, term by term.
-/
import proofs.«176706_j1597727834177_1_alg».proof.Proof.Gen.ReferenceIdeal.Read
import proofs.«176706_j1597727834177_1_alg».proof.Proof.PairSpec

noncomputable section

open scoped BigOperators

namespace Cert.ReferenceIdeal.RefValue

open Cert.ReferenceIdeal Cert.ReferenceIdeal.Read Idealize.ShloMosaic Idealize.ShloMosaic.ValueIdx Cert.PairSpec

/-- The reference's last stage is the pairwise function of the four arguments. -/
theorem stage_eq_pairwise (lig rec : FVec Ideal S4x512x128 .f32) (W : FVec Ideal S64x256 .f32) (bias : FVec Ideal S64 .f32) :
    val_main_v11 (F := Ideal) lig rec W bias = pairwise lig rec W bias := by
  funext i
  obtain ⟨b, l, r, o, rfl⟩ : ∃ (b : Fin 4) (l r : Fin 512) (o : Fin 64), i = ix4 b l r o :=
    ⟨i 0, i 1, i 2, i 3, eq_ix4 i⟩
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  -- each stage's composed operand index, at (b, l, r, o), by coordinates
  have ligIdx : ∀ k : Fin 128, lidx_main_v2 (idx_main_v4 (idx_main_v6 (ix4 b l r o))) k = ix3 b l k :=
    fun k => funext fun a => by match a with | ⟨0, _⟩ => rfl | ⟨1, _⟩ => rfl | ⟨2, _⟩ => rfl
  have wlIdx : ∀ k : Fin 128, idx_main_v0 (ridx_main_v2 (idx_main_v4 (idx_main_v6 (ix4 b l r o))) k) = ix2 o (colL k) :=
    fun k => funext fun a => by match a with | ⟨0, _⟩ => rfl | ⟨1, _⟩ => rfl
  have recIdx : ∀ k : Fin 128, lidx_main_v3 (idx_main_v5 (idx_main_v7 (ix4 b l r o))) k = ix3 b r k :=
    fun k => funext fun a => by match a with | ⟨0, _⟩ => rfl | ⟨1, _⟩ => rfl | ⟨2, _⟩ => rfl
  have wrIdx : ∀ k : Fin 128, idx_main_v1 (ridx_main_v3 (idx_main_v5 (idx_main_v7 (ix4 b l r o))) k) = ix2 o (colR k) :=
    fun k => funext fun a => by match a with | ⟨0, _⟩ => rfl | ⟨1, _⟩ => rfl
  have biasIdx : idx_main_v9 (idx_main_v10 (ix4 b l r o)) = ix1 o :=
    funext fun a => by match a with | ⟨0, _⟩ => rfl
  simp only [ligIdx, wlIdx, recIdx, wrIdx, biasIdx]
  rfl

end Cert.ReferenceIdeal.RefValue

end
-- ==== Proof.lean ====
/-
  The kernel computes the linear layer on every (ligand row, receptor row) pair, and so does the reference.

  For ligand features `lig[b, l, ·]` and receptor features `rec[b, r, ·]` of 128 entries each, a weight matrix
  `W = [Wl | Wr]` of 64 rows and 2 · 128 columns and a bias of 64 entries, both programs produce, at `(b, l, r, o)`,

      (∑ d, lig[b, l, d] · W[o, d])  +  (∑ d, rec[b, r, d] · W[o, 128 + d])  +  bias[o].

  The kernel tiles the (l, r) plane into 256 × 128 blocks per batch, recomputes the two small projections per tile as
  matrix products with the transposed weight halves, accumulated from zero, and adds them and the bias after
  broadcasting; its changes of float format are the identity on the extended reals. The reference contracts the whole
  arrays with the sliced weight halves and broadcasts the same way. On the extended reals a matrix product from zero and
  a contraction are the same finite sum, term by term in the same order of the feature index, and both programs add the
  two projections first and the bias last, so the two results are equal with no condition on the inputs: the
  finiteness precondition is not used.

  The pieces: the function itself (`PairSpec`), the kernel body's stored value at an index (`KernelBody`), the result
  array from the 32 blocks (`KernelArray`), and the reference's last stage read at an index (`RefSide`). The three
  frames are the generated ones; the kernel's idealization rewrote nothing, so that claim is `True`.
-/
import proofs.«176706_j1597727834177_1_alg».proof.Defs
import proofs.«176706_j1597727834177_1_alg».proof.Proof.Gen.Kernel
import proofs.«176706_j1597727834177_1_alg».proof.Proof.Gen.Kernel.Skeleton
import proofs.«176706_j1597727834177_1_alg».proof.Proof.Gen.Kernel.Launch
import proofs.«176706_j1597727834177_1_alg».proof.Proof.Gen.Kernel.Points
import proofs.«176706_j1597727834177_1_alg».proof.Proof.Gen.Kernel.Frame
import proofs.«176706_j1597727834177_1_alg».proof.Proof.Gen.KernelIdeal
import proofs.«176706_j1597727834177_1_alg».proof.Proof.Gen.KernelIdeal.Skeleton
import proofs.«176706_j1597727834177_1_alg».proof.Proof.Gen.KernelIdeal.Launch
import proofs.«176706_j1597727834177_1_alg».proof.Proof.Gen.KernelIdeal.Points
import proofs.«176706_j1597727834177_1_alg».proof.Proof.Gen.KernelIdeal.Frame
import proofs.«176706_j1597727834177_1_alg».proof.Proof.Gen.ReferenceIdeal
import proofs.«176706_j1597727834177_1_alg».proof.Proof.Gen.Pre_finite_inputs
import proofs.«176706_j1597727834177_1_alg».proof.Proof.Gen.KernelIdeal.Value
import proofs.«176706_j1597727834177_1_alg».proof.Proof.Gen.ReferenceIdeal.Run
import proofs.«176706_j1597727834177_1_alg».proof.Proof.Gen.ReferenceIdeal.Read
import proofs.«176706_j1597727834177_1_alg».proof.Proof.KernelArray
import proofs.«176706_j1597727834177_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's result are both the pairwise function of
    those arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.stage_eq_pairwise,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
